-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128 .f32) (main_arg6 : FVec F S128x10 .f32) (main_arg7 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg6
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x10 .f32) (main_arg7 : FVec F S10 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S5000x1 : Shape := ⟨2, ![5000, 1]⟩
abbrev S1x10 : Shape := ⟨2, ![1, 10]⟩
abbrev S50000x10 : Shape := ⟨2, ![50000, 10]⟩
abbrev S5000x10 : Shape := ⟨2, ![5000, 10]⟩

abbrev nBuf : Space → Nat
  | .hbm => 96
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x1, .f32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x128, .f32⟩
  | .hbm, ⟨65, _⟩ => ⟨S850000x1, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S1x128, .f32⟩
  | .hbm, ⟨76, _⟩ => ⟨S50000x128, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x1, .f32⟩
  | .hbm, ⟨87, _⟩ => ⟨S850000x128, .f32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S1x10, .f32⟩
  | .hbm, ⟨95, _⟩ => ⟨S50000x10, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x10, .f32⟩
  | .local _ .vmem, ⟨21, _⟩ => ⟨S1x10, .f32⟩
  | .local _ .vmem, ⟨22, _⟩ => ⟨S5000x10, .f32⟩
  | .local _ .vmem, ⟨23, _⟩ => ⟨S5000x10, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bcast_S_S128 : S_.BroadcastsInDim S128 (![] : Fin 0 → Fin S128.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x10.size a ≤ S50000x10.size a
  hwx2_5 : ∀ i : grid2.Coords, EltTy.bits .f32 = 32 ∨ (Rect.block (s := S50000x10) S5000x10.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S50000x1 : Shape := ⟨2, ![50000, 1]⟩
abbrev S1x128 : Shape := ⟨2, ![1, 128]⟩
abbrev S50000x10 : Shape := ⟨2, ![50000, 10]⟩
abbrev S1x10 : Shape := ⟨2, ![1, 10]⟩

abbrev nBuf : Space → Nat
  | .hbm => 132
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x10, .f32⟩
  | 7 => ⟨S10, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S_, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x256, .f32⟩

abbrev hbmTy0_1 (i : Nat) : BufTy := match i % 128 with
  | 0 => ⟨S50000x10, .f32⟩
  | 1 => ⟨S1x10, .f32⟩
  | 2 => ⟨S50000x10, .f32⟩
  | 3 => ⟨S50000x10, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_18 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call2_cst : Ref sig .tc := ⟨.hbm, 125, rfl⟩
abbrev main_call2_v0 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S850000x1_S850000_n_0_0_1_wf : ScatterDims.WF S50000 S850000x1 S850000 [] [0] [0] 1
  dot_S50000x256_S256x128_S50000x128_1_0_0_1_n_n_wf : DotDims.WF S50000x256 S256x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.Layers.lean ====
/-
  The two kinds of layer this network is made of, as functions of whole arrays over the extended reals, entry by entry.

  * `linAt X W Z r q`: entry (r, q) of the product X·W with the row Z added to every row:
        ∑_c X[r, c] · W[c, q]  +  Z[0, q].
  * `hidAt A D B r c`: a node's aggregated feature divided by its clamped degree, the bias added, clamped below at zero:
        max (A[r, c] / max (D[r, 0], 1) + B[0, c], 0).
  * `meanLinAt A D B W Z r q`: that hidden row times W, plus the row Z:
        ∑_c hidAt A D B r c · W[c, q]  +  Z[0, q].

  A row Z of zeros adds nothing (`add_zero` holds on all of the extended reals), which is how a product with no bias
  is the same layer.  Nothing here needs a finite entry: only sums and products are rearranged, never distributed.
-/
import Idealize.ShloMosaic.PureOps.Ideal
import Idealize.ShloMosaic.PureOps.Ideal.Laws
import Idealize.ShloMosaic.Lib.ValueIdx

noncomputable section

namespace Cert.Layers

open Idealize.ShloMosaic Idealize.ShloMosaic.ValueIdx

/-- The word of 1.0 and the word of 0.0 as extended reals (kept as words: both programs spell the same ones). -/
abbrev one : EReal := Ideal.ofBits .f32 0x3F800000#32
abbrev zero : EReal := Ideal.ofBits .f32 0x00000000#32

theorem zero_eq : zero = 0 := Ideal.ofBits_zero_f32

variable {n k p : ℕ}

/-- Entry (r, q) of X·W plus the row Z. -/
def linAt (X : FVec Ideal ⟨2, ![n, k]⟩ .f32) (W : FVec Ideal ⟨2, ![k, p]⟩ .f32) (Z : FVec Ideal ⟨2, ![1, p]⟩ .f32)
    (r : Fin n) (q : Fin p) : EReal :=
  (∑ c : Fin k, X (ix2 r c) * W (ix2 c q)) + Z (ix2 (0 : Fin 1) q)

/-- X·W plus the row Z, as an array. -/
def lin (X : FVec Ideal ⟨2, ![n, k]⟩ .f32) (W : FVec Ideal ⟨2, ![k, p]⟩ .f32) (Z : FVec Ideal ⟨2, ![1, p]⟩ .f32) :
    FVec Ideal ⟨2, ![n, p]⟩ .f32 :=
  fun i => linAt X W Z ⟨(i 0).val, idx2_lt0 i⟩ ⟨(i 1).val, idx2_lt1 i⟩

theorem lin_ix2 (X : FVec Ideal ⟨2, ![n, k]⟩ .f32) (W : FVec Ideal ⟨2, ![k, p]⟩ .f32) (Z : FVec Ideal ⟨2, ![1, p]⟩ .f32)
    (r : Fin n) (q : Fin p) : lin X W Z (ix2 r q) = linAt X W Z r q := rfl

/-- With a zero row the layer is the bare product. -/
theorem linAt_zeroRow (X : FVec Ideal ⟨2, ![n, k]⟩ .f32) (W : FVec Ideal ⟨2, ![k, p]⟩ .f32) (Z : FVec Ideal ⟨2, ![1, p]⟩ .f32)
    (hZ : ∀ q : Fin p, Z (ix2 (0 : Fin 1) q) = zero) (r : Fin n) (q : Fin p) :
    linAt X W Z r q = ∑ c : Fin k, X (ix2 r c) * W (ix2 c q) := by
  unfold linAt
  rw [hZ q, zero_eq, add_zero]

/-- The hidden unit (r, c): mean over the clamped degree, bias, clamp at zero. -/
def hidAt (A : FVec Ideal ⟨2, ![n, k]⟩ .f32) (D : FVec Ideal ⟨2, ![n, 1]⟩ .f32) (B : FVec Ideal ⟨2, ![1, k]⟩ .f32)
    (r : Fin n) (c : Fin k) : EReal :=
  max (Ideal.div (A (ix2 r c)) (max (D (ix2 r (0 : Fin 1))) one) + B (ix2 (0 : Fin 1) c)) zero

/-- Entry (r, q) of the hidden rows times W plus the row Z. -/
def meanLinAt (A : FVec Ideal ⟨2, ![n, k]⟩ .f32) (D : FVec Ideal ⟨2, ![n, 1]⟩ .f32) (B : FVec Ideal ⟨2, ![1, k]⟩ .f32)
    (W : FVec Ideal ⟨2, ![k, p]⟩ .f32) (Z : FVec Ideal ⟨2, ![1, p]⟩ .f32) (r : Fin n) (q : Fin p) : EReal :=
  (∑ c : Fin k, hidAt A D B r c * W (ix2 c q)) + Z (ix2 (0 : Fin 1) q)

/-- The hidden rows times W plus the row Z, as an array. -/
def meanLin (A : FVec Ideal ⟨2, ![n, k]⟩ .f32) (D : FVec Ideal ⟨2, ![n, 1]⟩ .f32) (B : FVec Ideal ⟨2, ![1, k]⟩ .f32)
    (W : FVec Ideal ⟨2, ![k, p]⟩ .f32) (Z : FVec Ideal ⟨2, ![1, p]⟩ .f32) : FVec Ideal ⟨2, ![n, p]⟩ .f32 :=
  fun i => meanLinAt A D B W Z ⟨(i 0).val, idx2_lt0 i⟩ ⟨(i 1).val, idx2_lt1 i⟩

theorem meanLin_ix2 (A : FVec Ideal ⟨2, ![n, k]⟩ .f32) (D : FVec Ideal ⟨2, ![n, 1]⟩ .f32) (B : FVec Ideal ⟨2, ![1, k]⟩ .f32)
    (W : FVec Ideal ⟨2, ![k, p]⟩ .f32) (Z : FVec Ideal ⟨2, ![1, p]⟩ .f32) (r : Fin n) (q : Fin p) :
    meanLin A D B W Z (ix2 r q) = meanLinAt A D B W Z r q := rfl

/-- With a zero row the layer is the bare product of the hidden rows with W. -/
theorem meanLinAt_zeroRow (A : FVec Ideal ⟨2, ![n, k]⟩ .f32) (D : FVec Ideal ⟨2, ![n, 1]⟩ .f32) (B : FVec Ideal ⟨2, ![1, k]⟩ .f32)
    (W : FVec Ideal ⟨2, ![k, p]⟩ .f32) (Z : FVec Ideal ⟨2, ![1, p]⟩ .f32)
    (hZ : ∀ q : Fin p, Z (ix2 (0 : Fin 1) q) = zero) (r : Fin n) (q : Fin p) :
    meanLinAt A D B W Z r q = ∑ c : Fin k, hidAt A D B r c * W (ix2 c q) := by
  unfold meanLinAt
  rw [hZ q, zero_eq, add_zero]

/-- A vector as a column: entry (r, 0) of the column is the vector's entry r. -/
def colOf (d : FVec Ideal ⟨1, ![n]⟩ .f32) : FVec Ideal ⟨2, ![n, 1]⟩ .f32 := fun i => d (ix1 ⟨(i 0).val, idx2_lt0 i⟩)

theorem colOf_ix2 (d : FVec Ideal ⟨1, ![n]⟩ .f32) (r : Fin n) (u : Fin 1) : colOf d (ix2 r u) = d (ix1 r) := rfl

/-- A vector as a row: entry (0, c) of the row is the vector's entry c. -/
def rowOf (b : FVec Ideal ⟨1, ![k]⟩ .f32) : FVec Ideal ⟨2, ![1, k]⟩ .f32 := fun i => b (ix1 ⟨(i 1).val, idx2_lt1 i⟩)

theorem rowOf_ix2 (b : FVec Ideal ⟨1, ![k]⟩ .f32) (u : Fin 1) (c : Fin k) : rowOf b (ix2 u c) = b (ix1 c) := rfl

/-- The row of zeros. -/
def zeroRow (k : ℕ) : FVec Ideal ⟨2, ![1, k]⟩ .f32 := fun _ => zero

/-- Every index of an [n, p] array is a pair of coordinates; two arrays equal at every pair are equal. -/
theorem ext2 {α : Type} (f g : (⟨2, ![n, p]⟩ : Shape).Idx → α) (h : ∀ (r : Fin n) (q : Fin p), f (ix2 r q) = g (ix2 r q)) : f = g :=
  funext fun i => by rw [eq_ix2 i]; exact h _ _

end Cert.Layers

end
-- ==== Proof.RefLayers.lean ====
/-
  The reference read layer by layer.  Its program is: the degrees and edge weights from the edge list; X·W1; one
  round of message passing (gather the rows at the sources, scale by the edge weights, add up at the destinations);
  the mean over the clamped degree, the bias b1, the clamp at zero; times W2; a second round; mean, b2, clamp; times
  Wc plus bc.  Each dense step is one of the two layer functions of Layers.lean at the reference's own stages, and the
  round of message passing is one function `agg` of the features and the edge list, the same at both rounds.
-/
import proofs.«420155_j66425964200295_3_alg».proof.Proof.RefRun
import proofs.«420155_j66425964200295_3_alg».proof.Proof.RefRead
import proofs.«420155_j66425964200295_3_alg».proof.Proof.Layers

noncomputable section

open Idealize.ShloMosaic Idealize.ShloMosaic.TcCoe Idealize.ShloMosaic.ValueIdx Idealize.SL.Sem

namespace Cert.ReferenceIdeal.Layered

open Cert.ReferenceIdeal Cert.ReferenceIdeal.ReadP

/-- The arrays' types, as the reference's stages take them. -/
abbrev Feat := (⟨S50000x128, .f32⟩ : BufTy).Contents (Elt Ideal)
abbrev Edges := (⟨S2x800000, .i32⟩ : BufTy).Contents (Elt Ideal)
abbrev Vec128 := (⟨S128, .f32⟩ : BufTy).Contents (Elt Ideal)

/-- One round of message passing over the features h: rows gathered at the (wrapped) sources, each scaled by its
    edge's weight, added up at the destinations into zeros. -/
def agg {F : FTy → Type} [FloatOps F] (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S850000x1_S850000x128_1_0_0_1 (val_main_v43 (F := F)) (val_main_v44 (F := F) e)
    (mulf (Host.gather gather_S50000x128_S850000x1_S850000x128_1_0_n_n_0_1_1128 h (val_main_v38 (F := F) e)) (val_main_v41 (F := F) e))

/-- The first round is `agg` of the first product. -/
theorem round1 {F : FTy → Type} [FloatOps F] (x0 : (⟨S50000x256, .f32⟩ : BufTy).Contents (Elt F)) (e : (⟨S2x800000, .i32⟩ : BufTy).Contents (Elt F))
    (x2 : (⟨S256x128, .f32⟩ : BufTy).Contents (Elt F)) :
    val_main_v45 (F := F) x0 e x2 = agg (val_main_v17 (F := F) x0 x2) e := rfl

/-- The second round is `agg` of the second product: the reference recomputes the wrapped sources and the edge
    weights by the same operations of the edge list. -/
theorem round2 {F : FTy → Type} [FloatOps F] (x0 : (⟨S50000x256, .f32⟩ : BufTy).Contents (Elt F)) (e : (⟨S2x800000, .i32⟩ : BufTy).Contents (Elt F))
    (x2 : (⟨S256x128, .f32⟩ : BufTy).Contents (Elt F)) (x3 : (⟨S128, .f32⟩ : BufTy).Contents (Elt F)) (x4 : (⟨S128x128, .f32⟩ : BufTy).Contents (Elt F)) :
    val_main_v83 (F := F) x0 e x2 x3 x4 = agg (val_main_v55 (F := F) x0 e x2 x3 x4) e := rfl

/-- The first product is the linear layer with no bias. -/
theorem layer1 (x0 : (⟨S50000x256, .f32⟩ : BufTy).Contents (Elt Ideal)) (x2 : (⟨S256x128, .f32⟩ : BufTy).Contents (Elt Ideal)) :
    val_main_v17 (F := Ideal) x0 x2 = Cert.Layers.lin x0 x2 (Cert.Layers.zeroRow 128) := by
  refine Cert.Layers.ext2 (n := 50000) (p := 128) _ _ fun r q => ?_
  rw [val_main_v17_apply, Cert.Layers.lin_ix2, Cert.Layers.linAt_zeroRow _ _ _ (fun _ => rfl)]
  refine Finset.sum_congr rfl fun c _ => ?_
  have hl : lidx_main_v17 (ix2 r q) c = ix2 r c := funext fun a => Fin.ext (by match a with | ⟨0, _⟩ => rfl | ⟨1, _⟩ => rfl)
  have hr : ridx_main_v17 (ix2 r q) c = ix2 c q := funext fun a => Fin.ext (by match a with | ⟨0, _⟩ => rfl | ⟨1, _⟩ => rfl)
  rw [hl, hr]

/-- The clamped degree, broadcast over the features (h1): at (r, c) it is max (deg r, 1). -/
theorem degAt_h1 (e : Edges) (r : Fin 50000) (c : Fin 128) :
    val_main_v49 (F := Ideal) e (ix2 r c) = max (val_main_v10 (F := Ideal) e (ix1 r)) Cert.Layers.one := by
  have hi : idx_main_v48 (idx_main_v49 (ix2 r c)) = ix1 r := funext fun a => Fin.ext (by match a with | ⟨0, _⟩ => rfl)
  rw [val_main_v49_apply, val_main_v48_apply, val_main_v47_apply, val_main_v46_apply, val_main_cst_10_apply, hi]
  rfl

/-- The bias, broadcast over the nodes (h1): at (r, c) it is b c. -/
theorem biasAt_h1 (b : Vec128) (r : Fin 50000) (c : Fin 128) : val_main_v52 (F := Ideal) b (ix2 r c) = b (ix1 c) := by
  have hi : idx_main_v51 (idx_main_v52 (ix2 r c)) = ix1 c := funext fun a => Fin.ext (by match a with | ⟨0, _⟩ => rfl)
  rw [val_main_v52_apply, val_main_v51_apply, hi]

/-- The hidden unit (r, c) of the reference (h1): the aggregated feature over the clamped degree, plus the bias, clamped at zero. -/
theorem hidden_h1 (x0 : (⟨S50000x256, .f32⟩ : BufTy).Contents (Elt Ideal)) (e : Edges) (x2 : (⟨S256x128, .f32⟩ : BufTy).Contents (Elt Ideal)) (x3 : Vec128) (r : Fin 50000) (c : Fin 128) :
    val_main_v54 (F := Ideal) x0 e x2 x3 (ix2 r c)
      = Cert.Layers.hidAt (val_main_v45 (F := Ideal) x0 e x2) (Cert.Layers.colOf (val_main_v10 (F := Ideal) e)) (Cert.Layers.rowOf x3) r c := by
  rw [val_main_v54_apply, val_main_v53_apply, val_main_v50_apply, degAt_h1, biasAt_h1, val_main_call1_v0_apply, val_main_call1_cst_apply]
  rfl

/-- The second product is the mean layer with no final bias, over the first round. -/
theorem layer2 (x0 : (⟨S50000x256, .f32⟩ : BufTy).Contents (Elt Ideal)) (e : Edges) (x2 : (⟨S256x128, .f32⟩ : BufTy).Contents (Elt Ideal))
    (x3 : Vec128) (x4 : (⟨S128x128, .f32⟩ : BufTy).Contents (Elt Ideal)) :
    val_main_v55 (F := Ideal) x0 e x2 x3 x4
      = Cert.Layers.meanLin (val_main_v45 (F := Ideal) x0 e x2) (Cert.Layers.colOf (val_main_v10 (F := Ideal) e)) (Cert.Layers.rowOf x3) x4 (Cert.Layers.zeroRow 128) := by
  refine Cert.Layers.ext2 (n := 50000) (p := 128) _ _ fun r q => ?_
  rw [val_main_v55_apply, Cert.Layers.meanLin_ix2, Cert.Layers.meanLinAt_zeroRow _ _ _ _ _ (fun _ => rfl)]
  refine Finset.sum_congr rfl fun c _ => ?_
  have hl : lidx_main_v55 (ix2 r q) c = ix2 r c := funext fun a => Fin.ext (by match a with | ⟨0, _⟩ => rfl | ⟨1, _⟩ => rfl)
  have hr : ridx_main_v55 (ix2 r q) c = ix2 c q := funext fun a => Fin.ext (by match a with | ⟨0, _⟩ => rfl | ⟨1, _⟩ => rfl)
  rw [hl, hr, hidden_h1]

/-- The clamped degree, broadcast over the features (h2): at (r, c) it is max (deg r, 1). -/
theorem degAt_h2 (e : Edges) (r : Fin 50000) (c : Fin 128) :
    val_main_v87 (F := Ideal) e (ix2 r c) = max (val_main_v10 (F := Ideal) e (ix1 r)) Cert.Layers.one := by
  have hi : idx_main_v86 (idx_main_v87 (ix2 r c)) = ix1 r := funext fun a => Fin.ext (by match a with | ⟨0, _⟩ => rfl)
  rw [val_main_v87_apply, val_main_v86_apply, val_main_v85_apply, val_main_v84_apply, val_main_cst_18_apply, hi]
  rfl

/-- The bias, broadcast over the nodes (h2): at (r, c) it is b c. -/
theorem biasAt_h2 (b : Vec128) (r : Fin 50000) (c : Fin 128) : val_main_v90 (F := Ideal) b (ix2 r c) = b (ix1 c) := by
  have hi : idx_main_v89 (idx_main_v90 (ix2 r c)) = ix1 c := funext fun a => Fin.ext (by match a with | ⟨0, _⟩ => rfl)
  rw [val_main_v90_apply, val_main_v89_apply, hi]

/-- The hidden unit (r, c) of the reference (h2): the aggregated feature over the clamped degree, plus the bias, clamped at zero. -/
theorem hidden_h2 (x0 : (⟨S50000x256, .f32⟩ : BufTy).Contents (Elt Ideal)) (e : Edges) (x2 : (⟨S256x128, .f32⟩ : BufTy).Contents (Elt Ideal)) (x3 : Vec128) (x4 : (⟨S128x128, .f32⟩ : BufTy).Contents (Elt Ideal)) (x5 : Vec128) (r : Fin 50000) (c : Fin 128) :
    val_main_v92 (F := Ideal) x0 e x2 x3 x4 x5 (ix2 r c)
      = Cert.Layers.hidAt (val_main_v83 (F := Ideal) x0 e x2 x3 x4) (Cert.Layers.colOf (val_main_v10 (F := Ideal) e)) (Cert.Layers.rowOf x5) r c := by
  rw [val_main_v92_apply, val_main_v91_apply, val_main_v88_apply, degAt_h2, biasAt_h2, val_main_call2_v0_apply, val_main_call2_cst_apply]
  rfl

/-- The classifier is the mean layer with the bias bc as its row, over the second round. -/
theorem layer3 (x0 : (⟨S50000x256, .f32⟩ : BufTy).Contents (Elt Ideal)) (e : Edges) (x2 : (⟨S256x128, .f32⟩ : BufTy).Contents (Elt Ideal))
    (x3 : Vec128) (x4 : (⟨S128x128, .f32⟩ : BufTy).Contents (Elt Ideal)) (x5 : Vec128)
    (x6 : (⟨S128x10, .f32⟩ : BufTy).Contents (Elt Ideal)) (x7 : (⟨S10, .f32⟩ : BufTy).Contents (Elt Ideal)) :
    val_main_v96 (F := Ideal) x0 e x2 x3 x4 x5 x6 x7
      = Cert.Layers.meanLin (val_main_v83 (F := Ideal) x0 e x2 x3 x4) (Cert.Layers.colOf (val_main_v10 (F := Ideal) e)) (Cert.Layers.rowOf x5) x6 (Cert.Layers.rowOf x7) := by
  refine Cert.Layers.ext2 (n := 50000) (p := 10) _ _ fun r q => ?_
  have hb : idx_main_v94 (idx_main_v95 (ix2 r q)) = ix1 q := funext fun a => Fin.ext (by match a with | ⟨0, _⟩ => rfl)
  rw [val_main_v96_apply, val_main_v93_apply, val_main_v95_apply, val_main_v94_apply, hb, Cert.Layers.meanLin_ix2]
  unfold Cert.Layers.meanLinAt
  refine congrArg₂ (· + ·) (Finset.sum_congr rfl fun c _ => ?_) rfl
  have hl : lidx_main_v93 (ix2 r q) c = ix2 r c := funext fun a => Fin.ext (by match a with | ⟨0, _⟩ => rfl | ⟨1, _⟩ => rfl)
  have hr : ridx_main_v93 (ix2 r q) c = ix2 c q := funext fun a => Fin.ext (by match a with | ⟨0, _⟩ => rfl | ⟨1, _⟩ => rfl)
  rw [hl, hr, hidden_h2]

end Cert.ReferenceIdeal.Layered

end
-- ==== Proof.HostChain.lean ====
/-
  The host operations around the three pallas_calls, read at every boundary between segments of @main.

  Before the first call the program computes, from the edge list alone: the sources and destinations with a self loop
  appended for every node, the degrees (a scatter-add of ones at the destinations), their inverse square roots where the
  degree is positive, and the edge weights (the product of the two end points' inverse roots, gathered at the wrapped
  indices); it also lays the degrees out as a column and makes a zero row.  Between the calls it does one round of
  message passing on the call's output (`agg`: gather at the sources, scale by the weights, add at the destinations) and
  lays the next bias out as a row.  These are the very operations the reference applies, so each buffer is stated at the
  reference's own stage of the same arguments, and a buffer no operation of a stretch writes is carried across it.
  Everything here holds for any float values: nothing is computed, terms are only matched.
-/
import proofs.«420155_j66425964200295_3_alg».proof.Proof.Gen.KernelIdeal.Frame
import proofs.«420155_j66425964200295_3_alg».proof.Proof.RefRead
import proofs.«420155_j66425964200295_3_alg».proof.Proof.RefLayers

set_option maxRecDepth 16384
set_option maxHeartbeats 4000000

noncomputable section

open Idealize.ShloMosaic Idealize.ShloMosaic.TcCoe Idealize.SL.Sem Idealize.ShloMosaic.StableHlo

namespace Cert.KernelIdeal.HostChain

open Cert.KernelIdeal Cert.KernelIdeal.Gen
open Cert.ReferenceIdeal.ReadP Cert.ReferenceIdeal.Layered

variable {F : FTy → Type} [FloatOps F]
variable (m : (ℓ : Loc nD τ sig) → Buf (Elt F) ℓ) (ρ : Dev nD → PrngReg)

/-! ## The argument arrays, at the types the reference's stages take them -/

abbrev a0 (c : Dev nD) : (⟨Cert.ReferenceIdeal.S50000x256, .f32⟩ : BufTy).Contents (Elt F) := m ((c.tc : Thread nD τ).loc main_arg0)
abbrev a1 (c : Dev nD) : (⟨Cert.ReferenceIdeal.S2x800000, .i32⟩ : BufTy).Contents (Elt F) := m ((c.tc : Thread nD τ).loc main_arg1)
abbrev a2 (c : Dev nD) : (⟨Cert.ReferenceIdeal.S256x128, .f32⟩ : BufTy).Contents (Elt F) := m ((c.tc : Thread nD τ).loc main_arg2)
abbrev a3 (c : Dev nD) : (⟨Cert.ReferenceIdeal.S128, .f32⟩ : BufTy).Contents (Elt F) := m ((c.tc : Thread nD τ).loc main_arg3)
abbrev a4 (c : Dev nD) : (⟨Cert.ReferenceIdeal.S128x128, .f32⟩ : BufTy).Contents (Elt F) := m ((c.tc : Thread nD τ).loc main_arg4)
abbrev a5 (c : Dev nD) : (⟨Cert.ReferenceIdeal.S128, .f32⟩ : BufTy).Contents (Elt F) := m ((c.tc : Thread nD τ).loc main_arg5)
abbrev a6 (c : Dev nD) : (⟨Cert.ReferenceIdeal.S128x10, .f32⟩ : BufTy).Contents (Elt F) := m ((c.tc : Thread nD τ).loc main_arg6)
abbrev a7 (c : Dev nD) : (⟨Cert.ReferenceIdeal.S10, .f32⟩ : BufTy).Contents (Elt F) := m ((c.tc : Thread nD τ).loc main_arg7)

/-- The zero row a call with no bias is handed. -/
abbrev zrow : (⟨S1x128, .f32⟩ : BufTy).Contents (Elt F) :=
  shapeCast S1x128 (broadcastInDim S128 ![] bcast_S_S128 (constant (F := F) S_ .f32 0x00000000#32)) shapeCasts_S128_S1x128

/-! ## Before the first call: three stretches from the launch memory -/

/-- Read a buffer through the three stretches that run before the first call. -/
local macro "read_first" : tactic =>
  `(tactic| (show StableHlo.after hostOps0_2 (StableHlo.after hostOps0_1 (StableHlo.after hostOps0 (W0 _ _ _))) _ = _
             after_results
             all_goals rfl))

/-- The sources, self loops appended. -/
theorem first_src (c : Dev nD) : W3 m ρ c (Proc.devRef .tc main_v3) = val_main_v3 (F := F) (a1 m c) := by read_first
/-- The destinations, self loops appended. -/
theorem first_dst (c : Dev nD) : W3 m ρ c (Proc.devRef .tc main_v6) = val_main_v6 (F := F) (a1 m c) := by read_first
/-- Read a buffer through the first two stretches (up to the end of the `where` that zeroes the inverse roots of empty degrees). -/
local macro "read_where" : tactic =>
  `(tactic| (show StableHlo.after hostOps0_1 (StableHlo.after hostOps0 (W0 _ _ _)) _ = _
             after_results
             all_goals rfl))
/-- The inverse square roots of the degrees, zero where the degree is zero. -/
theorem where_dinv (c : Dev nD) : W2 m ρ c (Proc.devRef .tc main_v16) = val_main_v16 (F := F) (a1 m c) := by read_where
theorem where_src (c : Dev nD) : W2 m ρ c (Proc.devRef .tc main_v3) = val_main_v3 (F := F) (a1 m c) := by read_where
theorem where_dst (c : Dev nD) : W2 m ρ c (Proc.devRef .tc main_v6) = val_main_v6 (F := F) (a1 m c) := by read_where
/-- The edge weights: the two end points' inverse roots, gathered at the wrapped indices, multiplied. -/
theorem first_norm (c : Dev nD) : W3 m ρ c (Proc.devRef .tc main_v31) = val_main_v32 (F := F) (a1 m c) := by
  show StableHlo.after hostOps0_2 (W2 m ρ c) (Proc.devRef .tc main_v31) = _
  have e16 := where_dinv m ρ c
  have e3 := where_src m ρ c
  have e6 := where_dst m ρ c
  generalize W2 m ρ c = Wv at e16 e3 e6 ⊢
  after_results
  rw [e16, e3, e6]
  rfl
/-- The degrees as a column. -/
theorem first_degcol (c : Dev nD) :
    W3 m ρ c (Proc.devRef .tc main_v32) = shapeCast S50000x1 (val_main_v10 (F := F) (a1 m c)) shapeCasts_S50000_S50000x1 := by read_first
/-- The zero row. -/
theorem first_zrow (c : Dev nD) : W3 m ρ c (Proc.devRef .tc main_v34) = zrow (F := F) := by read_first
theorem first_arg0 (c : Dev nD) : W3 m ρ c (Proc.devRef .tc main_arg0) = a0 m c := by read_first
theorem first_arg2 (c : Dev nD) : W3 m ρ c (Proc.devRef .tc main_arg2) = a2 m c := by read_first
theorem first_arg3 (c : Dev nD) : W3 m ρ c (Proc.devRef .tc main_arg3) = a3 m c := by read_first
theorem first_arg4 (c : Dev nD) : W3 m ρ c (Proc.devRef .tc main_arg4) = a4 m c := by read_first
theorem first_arg5 (c : Dev nD) : W3 m ρ c (Proc.devRef .tc main_arg5) = a5 m c := by read_first
theorem first_arg6 (c : Dev nD) : W3 m ρ c (Proc.devRef .tc main_arg6) = a6 m c := by read_first
theorem first_arg7 (c : Dev nD) : W3 m ρ c (Proc.devRef .tc main_arg7) = a7 m c := by read_first

/-! ## Across the first call: its output array at what the pipeline leaves, every other buffer as entered -/

theorem out0 (c : Dev nD) : W4 m ρ c (Proc.devRef .tc main_v35) = (dat0 (V3 m ρ) c).arrAt 3 cfg0.N := W4_arr m ρ c 3
theorem c0_src (c : Dev nD) : W4 m ρ c (Proc.devRef .tc main_v3) = val_main_v3 (F := F) (a1 m c) := (W4_of_ne m ρ c main_v3 (by decide)).trans (first_src m ρ c)
theorem c0_dst (c : Dev nD) : W4 m ρ c (Proc.devRef .tc main_v6) = val_main_v6 (F := F) (a1 m c) := (W4_of_ne m ρ c main_v6 (by decide)).trans (first_dst m ρ c)
theorem c0_norm (c : Dev nD) : W4 m ρ c (Proc.devRef .tc main_v31) = val_main_v32 (F := F) (a1 m c) := (W4_of_ne m ρ c main_v31 (by decide)).trans (first_norm m ρ c)
theorem c0_degcol (c : Dev nD) :
    W4 m ρ c (Proc.devRef .tc main_v32) = shapeCast S50000x1 (val_main_v10 (F := F) (a1 m c)) shapeCasts_S50000_S50000x1 :=
  (W4_of_ne m ρ c main_v32 (by decide)).trans (first_degcol m ρ c)
theorem c0_arg3 (c : Dev nD) : W4 m ρ c (Proc.devRef .tc main_arg3) = a3 m c := (W4_of_ne m ρ c main_arg3 (by decide)).trans (first_arg3 m ρ c)
theorem c0_arg4 (c : Dev nD) : W4 m ρ c (Proc.devRef .tc main_arg4) = a4 m c := (W4_of_ne m ρ c main_arg4 (by decide)).trans (first_arg4 m ρ c)
theorem c0_arg5 (c : Dev nD) : W4 m ρ c (Proc.devRef .tc main_arg5) = a5 m c := (W4_of_ne m ρ c main_arg5 (by decide)).trans (first_arg5 m ρ c)
theorem c0_arg6 (c : Dev nD) : W4 m ρ c (Proc.devRef .tc main_arg6) = a6 m c := (W4_of_ne m ρ c main_arg6 (by decide)).trans (first_arg6 m ρ c)
theorem c0_arg7 (c : Dev nD) : W4 m ρ c (Proc.devRef .tc main_arg7) = a7 m c := (W4_of_ne m ρ c main_arg7 (by decide)).trans (first_arg7 m ρ c)

/-! ## Between the first and the second call -/

/-- The first round of message passing, on the first call's output. -/
theorem mid1_agg (c : Dev nD) : W5 m ρ c (Proc.devRef .tc main_v48) = agg ((dat0 (V3 m ρ) c).arrAt 3 cfg0.N) (a1 m c) := by
  show StableHlo.after hostOps1 (W4 m ρ c) (Proc.devRef .tc main_v48) = _
  after_results_simp
  rw [out0, c0_src, c0_dst, c0_norm]
  rfl
/-- The first bias as a row. -/
theorem mid1_bias (c : Dev nD) : W5 m ρ c (Proc.devRef .tc main_v50) = shapeCast S1x128 (a3 m c) shapeCasts_S128_S1x128 := by
  show StableHlo.after hostOps1 (W4 m ρ c) (Proc.devRef .tc main_v50) = _
  after_results
  rw [c0_arg3]
  rfl
theorem mid1_zrow (c : Dev nD) : W5 m ρ c (Proc.devRef .tc main_v51) = zrow (F := F) := by
  show StableHlo.after hostOps1 (W4 m ρ c) (Proc.devRef .tc main_v51) = _
  after_results
  rfl
/-- Carry a buffer the stretch does not write across it. -/
local macro "carry_mid1" : tactic =>
  `(tactic| (show StableHlo.after hostOps1 (W4 _ _ _) _ = _
             after_results))
theorem mid1_degcol (c : Dev nD) :
    W5 m ρ c (Proc.devRef .tc main_v32) = shapeCast S50000x1 (val_main_v10 (F := F) (a1 m c)) shapeCasts_S50000_S50000x1 := by
  carry_mid1; exact c0_degcol m ρ c
theorem mid1_src (c : Dev nD) : W5 m ρ c (Proc.devRef .tc main_v3) = val_main_v3 (F := F) (a1 m c) := by carry_mid1; exact c0_src m ρ c
theorem mid1_dst (c : Dev nD) : W5 m ρ c (Proc.devRef .tc main_v6) = val_main_v6 (F := F) (a1 m c) := by carry_mid1; exact c0_dst m ρ c
theorem mid1_norm (c : Dev nD) : W5 m ρ c (Proc.devRef .tc main_v31) = val_main_v32 (F := F) (a1 m c) := by carry_mid1; exact c0_norm m ρ c
theorem mid1_arg4 (c : Dev nD) : W5 m ρ c (Proc.devRef .tc main_arg4) = a4 m c := by carry_mid1; exact c0_arg4 m ρ c
theorem mid1_arg5 (c : Dev nD) : W5 m ρ c (Proc.devRef .tc main_arg5) = a5 m c := by carry_mid1; exact c0_arg5 m ρ c
theorem mid1_arg6 (c : Dev nD) : W5 m ρ c (Proc.devRef .tc main_arg6) = a6 m c := by carry_mid1; exact c0_arg6 m ρ c
theorem mid1_arg7 (c : Dev nD) : W5 m ρ c (Proc.devRef .tc main_arg7) = a7 m c := by carry_mid1; exact c0_arg7 m ρ c

/-! ## Across the second call -/

theorem out1 (c : Dev nD) : W6 m ρ c (Proc.devRef .tc main_v52) = (dat1 (V5 m ρ) c).arrAt 5 cfg1.N := W6_arr m ρ c 5
theorem c1_src (c : Dev nD) : W6 m ρ c (Proc.devRef .tc main_v3) = val_main_v3 (F := F) (a1 m c) := (W6_of_ne m ρ c main_v3 (by decide)).trans (mid1_src m ρ c)
theorem c1_dst (c : Dev nD) : W6 m ρ c (Proc.devRef .tc main_v6) = val_main_v6 (F := F) (a1 m c) := (W6_of_ne m ρ c main_v6 (by decide)).trans (mid1_dst m ρ c)
theorem c1_norm (c : Dev nD) : W6 m ρ c (Proc.devRef .tc main_v31) = val_main_v32 (F := F) (a1 m c) := (W6_of_ne m ρ c main_v31 (by decide)).trans (mid1_norm m ρ c)
/-- The degree column is an input array of the second call: the pipeline leaves an input array as it found it. -/
theorem c1_degcol (c : Dev nD) :
    W6 m ρ c (Proc.devRef .tc main_v32) = shapeCast S50000x1 (val_main_v10 (F := F) (a1 m c)) shapeCasts_S50000_S50000x1 :=
  ((W6_arr m ρ c 1).trans (((dat1 (V5 m ρ) c).arrAt_in 1 rfl _).trans (A_eq1 (V5 m ρ) c 1))).trans (mid1_degcol m ρ c)
theorem c1_arg5 (c : Dev nD) : W6 m ρ c (Proc.devRef .tc main_arg5) = a5 m c := (W6_of_ne m ρ c main_arg5 (by decide)).trans (mid1_arg5 m ρ c)
theorem c1_arg6 (c : Dev nD) : W6 m ρ c (Proc.devRef .tc main_arg6) = a6 m c := (W6_of_ne m ρ c main_arg6 (by decide)).trans (mid1_arg6 m ρ c)
theorem c1_arg7 (c : Dev nD) : W6 m ρ c (Proc.devRef .tc main_arg7) = a7 m c := (W6_of_ne m ρ c main_arg7 (by decide)).trans (mid1_arg7 m ρ c)

/-! ## Between the second and the third call -/

/-- The second round of message passing, on the second call's output. -/
theorem mid2_agg (c : Dev nD) : W7 m ρ c (Proc.devRef .tc main_v65) = agg ((dat1 (V5 m ρ) c).arrAt 5 cfg1.N) (a1 m c) := by
  show StableHlo.after hostOps2 (W6 m ρ c) (Proc.devRef .tc main_v65) = _
  after_results_simp
  rw [out1, c1_src, c1_dst, c1_norm]
  rfl
/-- The second bias as a row. -/
theorem mid2_bias (c : Dev nD) : W7 m ρ c (Proc.devRef .tc main_v66) = shapeCast S1x128 (a5 m c) shapeCasts_S128_S1x128 := by
  show StableHlo.after hostOps2 (W6 m ρ c) (Proc.devRef .tc main_v66) = _
  after_results
  rw [c1_arg5]
  rfl
/-- The classifier's bias as a row. -/
theorem mid2_cbias (c : Dev nD) : W7 m ρ c (Proc.devRef .tc main_v67) = shapeCast S1x10 (a7 m c) shapeCasts_S10_S1x10 := by
  show StableHlo.after hostOps2 (W6 m ρ c) (Proc.devRef .tc main_v67) = _
  after_results
  rw [c1_arg7]
  rfl
theorem mid2_degcol (c : Dev nD) :
    W7 m ρ c (Proc.devRef .tc main_v32) = shapeCast S50000x1 (val_main_v10 (F := F) (a1 m c)) shapeCasts_S50000_S50000x1 := by
  show StableHlo.after hostOps2 (W6 m ρ c) (Proc.devRef .tc main_v32) = _
  after_results
  exact c1_degcol m ρ c
theorem mid2_arg6 (c : Dev nD) : W7 m ρ c (Proc.devRef .tc main_arg6) = a6 m c := by
  show StableHlo.after hostOps2 (W6 m ρ c) (Proc.devRef .tc main_arg6) = _
  after_results
  exact c1_arg6 m ρ c

/-! ## Across the third call -/

theorem out2 (c : Dev nD) : W8 m ρ c (Proc.devRef .tc main_v68) = (dat2 (V7 m ρ) c).arrAt 5 cfg2.N := W8_arr m ρ c 5

end Cert.KernelIdeal.HostChain

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.Region0Value.lean ====
/-
  The first pallas_call, read as a value: whatever the TensorCore's buffers hold when the region is entered, the
  region leaves in its output array the product of its first two arrays plus its third (a row), entry by entry.

  The grid has ten points; point t handles rows 5000·t … 5000·t + 4999.  Its body loads that block of rows of X,
  all of W and the row Z, multiplies into a zero accumulator, adds the row, and stores the 5000 × 128 block; the ten
  blocks tile the 50000 × 128 result.  So entry (5000·t + p, q) of the result is ∑_k X[5000·t + p, k] · W[k, q] + Z[0, q].
-/
import proofs.«420155_j66425964200295_3_alg».proof.Proof.Gen.KernelIdeal.Frame
import proofs.«420155_j66425964200295_3_alg».proof.Proof.Layers
import proofs.«420155_j66425964200295_3_alg».proof.Proof.LibPlainDot
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, at their literal shapes. -/
abbrev xArr (c : Dev nD) : FVec Ideal ⟨2, ![50000, 256]⟩ .f32 := V c main_arg0
abbrev wArr (c : Dev nD) : FVec Ideal ⟨2, ![256, 128]⟩ .f32 := V c main_arg2
abbrev rowArr (c : Dev nD) : FVec Ideal ⟨2, ![1, 128]⟩ .f32 := V c main_v34

/-- The stored value is the block of X times W into zeros, plus the row. -/
theorem pay_eq (x0 : Vec Ideal S5000x256 .f32) (x1 : Vec Ideal S256x128 .f32) (x2 : Vec Ideal S1x128 .f32) :
    k0_pay1 x0 x1 x2 = addf (matmul (F := Ideal) (φ₁ := .f32) (φ₂ := .f32) dot_S5000x256_S256x128_S5000x128_1_0_0_1_n_n none x0 x1 (constant (F := Ideal) S5000x128 .f32 0x00000000#32))
      (broadcastTo S5000x128 (shapeCast S1x128 x2 shapeCasts_S1x128_S1x128) broadcasts_S1x128_S5000x128) := rfl

/-- The body's stored value at entry (p, q) of a block: the block's row p times W's column q, plus the row's entry q. -/
theorem pay_apply (x0 : Vec Ideal S5000x256 .f32) (x1 : Vec Ideal S256x128 .f32) (x2 : Vec Ideal S1x128 .f32)
    (p : Fin 5000) (q : Fin 128) :
    k0_pay1 x0 x1 x2 (ix2 p q) = Cert.Layers.linAt (n := 5000) (k := 256) (p := 128) x0 x1 x2 p q := by
  rw [pay_eq, addf_apply]
  unfold Cert.Layers.linAt
  refine congrArg₂ (· + ·) ?_ ?_
  · exact Cert.Lib.PlainDot.matmul_plain_zero_apply none x0 x1 p q
  · rw [shapeCast_self]; exact broadcastTo_1b_ab_apply x2 _ p q

/-- The printed index maps over the grid: the row blocks move with the point, everything else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 10 := t.isLt.trans_eq (show cfg0.N = 10 from N_0)

/-- Point t's block of X is rows 5000·t … of X. -/
theorem xblk_apply (c : Dev nD) (t : Fin cfg0.N) (p : Fin 5000) (k : Fin 256) (r : Fin 50000) (hr : r.val = 5000 * t.val + p.val) :
    (iblk0 V c 0 t : Vec Ideal S5000x256 .f32) (ix2 p k) = xArr V c (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- Every point's block of W is W. -/
theorem wblk_apply (c : Dev nD) (t : Fin cfg0.N) (k : Fin 256) (q : Fin 128) :
    (iblk0 V c 1 t : Vec Ideal S256x128 .f32) (ix2 k q) = wArr V c (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- Every point's block of the row is the row. -/
theorem zblk_apply (c : Dev nD) (t : Fin cfg0.N) (q : Fin 128) :
    (iblk0 V c 2 t : Vec Ideal S1x128 .f32) (ix2 (0 : Fin 1) q) = rowArr V c (ix2 (0 : Fin 1) q) := by
  obtain ⟨-, -, -, -, e4, e5, -⟩ := idx_facts t
  unfold iblk0
  rw [View.read_apply]
  show V c main_v34 _ = V c main_v34 _
  congr 1
  funext a
  apply Fin.ext
  match a with
  | ⟨0, _⟩ => show win0_2.index t (0 : Fin 2) * 1 + 1 * 0 = 0; rw [e4]
  | ⟨1, _⟩ => show win0_2.index t (1 : Fin 2) * 128 + 1 * q.val = q.val; rw [e5]; omega

/-- What point t writes back is block t of the layer's array. -/
theorem flushed_eq (c : Dev nD) (t : Fin cfg0.N) :
    (dat0 V c).flushed 3 t = ((cfg0.win 3).blk t).view.read (Elt Ideal) (Cert.Layers.lin (xArr V c) (wArr V c) (rowArr V c)) := by
  obtain ⟨-, -, -, -, -, -, e6, e7⟩ := idx_facts t
  have ht := t_lt t
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  funext j
  obtain ⟨p, q, rfl⟩ : ∃ (p : Fin 5000) (q : Fin 128), j = ix2 p q := ⟨j 0, j 1, eq_ix2 j⟩
  rw [View.read_apply]
  have he : ((cfg0.win 3).blk t).view.emb (ix2 p q) = ix2 (⟨5000 * t.val + p.val, by have := p.isLt; omega⟩ : Fin 50000) q := by
    funext a
    apply Fin.ext
    match a with
    | ⟨0, _⟩ => show win0_3.index t (0 : Fin 2) * 5000 + 1 * p.val = 5000 * t.val + p.val; rw [e6]; omega
    | ⟨1, _⟩ => show win0_3.index t (1 : Fin 2) * 128 + 1 * q.val = q.val; rw [e7]; omega
  rw [he, Cert.Layers.lin_ix2]
  refine (pay_apply (iblk0 V c 0 t) (iblk0 V c 1 t) (iblk0 V c 2 t) p q).trans ?_
  unfold Cert.Layers.linAt
  refine congrArg₂ (· + ·) (Finset.sum_congr rfl fun k _ => congrArg₂ (· * ·) ?_ ?_) ?_
  · exact xblk_apply V c t p k _ rfl
  · exact wblk_apply V c t k q
  · exact zblk_apply V c t q

/-- An index of the result is in point t's block iff its coordinates are in the block's ranges. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v35).slice (win0_3.rect t)).set ↔ _
  rw [View.set_slice_whole, Rect.mem_set_unit]
  exact Iff.rfl

/-- Row r of the result is in the block of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by rw [show cfg0.N = 10 from N_0]; omega⟩, flush0_3 _, ?_⟩
  rw [mem_blk]
  obtain ⟨-, -, -, -, -, -, e6, e7⟩ := idx_facts ⟨(i 0).val / 5000, by rw [show cfg0.N = 10 from N_0]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- The region's output array after its ten write-backs: X·W plus the row, whatever the entry contents. -/
theorem value (c : Dev nD) : (dat0 V c).arrAt 3 cfg0.N = Cert.Layers.lin (xArr V c) (wArr V c) (rowArr V c) :=
  (dat0 V c).arrAt_eq_of_cover 3 (Cert.Layers.lin (xArr V c) (wArr V c) (rowArr V c)) (fun t _ => flushed_eq V c t) (cover)

end Cert.KernelIdeal.Region0

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.Region1Value.lean ====
/-
  The second pallas_call, read as a value: whatever the TensorCore's buffers hold when the region is entered, the
  region leaves in its output array the mean layer of its five arrays, entry by entry.

  The grid has ten points; point t handles rows 5000·t … 5000·t + 4999.  Its body loads that block of rows of the
  aggregated features A and of the degree column D, the bias row B, all of W and the row Z; it divides each row of A by
  its degree clamped below at one, adds the bias, clamps at zero, multiplies by W into a zero accumulator, adds Z, and
  stores the block; the ten blocks tile the result.  So entry (5000·t + p, q) of the result is
  ∑_k max (A[5000·t + p, k] / max (D[5000·t + p, 0], 1) + B[0, k], 0) · W[k, q] + Z[0, q].
-/
import proofs.«420155_j66425964200295_3_alg».proof.Proof.Gen.KernelIdeal.Frame
import proofs.«420155_j66425964200295_3_alg».proof.Proof.Layers
import proofs.«420155_j66425964200295_3_alg».proof.Proof.LibPlainDot
import proofs.«420155_j66425964200295_3_alg».proof.Proof.LibRowOps
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The five arrays the region reads, at their literal shapes. -/
abbrev featArr (c : Dev nD) : FVec Ideal ⟨2, ![50000, 128]⟩ .f32 := V c main_v48
abbrev degArr (c : Dev nD) : FVec Ideal ⟨2, ![50000, 1]⟩ .f32 := V c main_v32
abbrev biasArr (c : Dev nD) : FVec Ideal ⟨2, ![1, 128]⟩ .f32 := V c main_v50
abbrev wArr (c : Dev nD) : FVec Ideal ⟨2, ![128, 128]⟩ .f32 := V c main_arg4
abbrev rowArr (c : Dev nD) : FVec Ideal ⟨2, ![1, 128]⟩ .f32 := V c main_v51

/-- The hidden block the body forms before its product: mean over the clamped degree, bias, clamp at zero. -/
def hidBlk (v0 : Vec Ideal S5000x128 .f32) (v2 : Vec Ideal S5000x1 .f32) (v8 : Vec Ideal S1x128 .f32) : FVec Ideal S5000x128 .f32 :=
  maximumf (F := Ideal) (addf (F := Ideal) (divf (F := Ideal) (shapeCast S5000x128 v0 shapeCasts_S5000x128_S5000x128)
        (broadcastTo S5000x128 (maximumf (F := Ideal) (shapeCast S5000x1 v2 shapeCasts_S5000x1_S5000x1) (broadcast S5000x1 (Scalar.ofBits (F := Ideal) .f32 0x3F800000#32))) broadcasts_S5000x1_S5000x128))
      (broadcastTo S5000x128 (shapeCast S1x128 v8 shapeCasts_S1x128_S1x128) broadcasts_S1x128_S5000x128))
    (broadcast S5000x128 (Scalar.ofBits (F := Ideal) .f32 0x00000000#32))

/-- The stored value is the hidden block times W into zeros, plus the row. -/
theorem pay_eq (v0 : Vec Ideal S5000x128 .f32) (v2 : Vec Ideal S5000x1 .f32) (v8 : Vec Ideal S1x128 .f32) (v14 : Vec Ideal S128x128 .f32) (v16 : Vec Ideal S1x128 .f32) :
    k1_pay1 v0 v2 v8 v14 v16 = addf (matmul (F := Ideal) (φ₁ := .f32) (φ₂ := .f32) dot_S5000x128_S128x128_S5000x128_1_0_0_1_n_n none (hidBlk v0 v2 v8) v14 (constant (F := Ideal) S5000x128 .f32 0x00000000#32))
      (broadcastTo S5000x128 (shapeCast S1x128 v16 shapeCasts_S1x128_S1x128) broadcasts_S1x128_S5000x128) := rfl

/-- The hidden block at entry (p, c). -/
theorem hidBlk_apply (v0 : Vec Ideal S5000x128 .f32) (v2 : Vec Ideal S5000x1 .f32) (v8 : Vec Ideal S1x128 .f32) (p : Fin 5000) (c : Fin 128) :
    hidBlk v0 v2 v8 (ix2 p c) = Cert.Layers.hidAt (n := 5000) (k := 128) v0 v2 v8 p c := by
  unfold hidBlk Cert.Layers.hidAt
  simp only [shapeCast_self]
  rw [maximumf_apply, addf_apply, divf_apply]
  rw [Cert.RowOps.broadcastTo_a1_ab_apply (maximumf (F := Ideal) v2 (broadcast S5000x1 (Scalar.ofBits (F := Ideal) .f32 0x3F800000#32))) broadcasts_S5000x1_S5000x128 p c,
    broadcastTo_1b_ab_apply v8 broadcasts_S1x128_S5000x128 p c, maximumf_apply]
  rfl

/-- The body's stored value at entry (p, q) of a block. -/
theorem pay_apply (v0 : Vec Ideal S5000x128 .f32) (v2 : Vec Ideal S5000x1 .f32) (v8 : Vec Ideal S1x128 .f32) (v14 : Vec Ideal S128x128 .f32) (v16 : Vec Ideal S1x128 .f32)
    (p : Fin 5000) (q : Fin 128) :
    k1_pay1 v0 v2 v8 v14 v16 (ix2 p q) = Cert.Layers.meanLinAt (n := 5000) (k := 128) (p := 128) v0 v2 v8 v14 v16 p q := by
  rw [pay_eq, addf_apply]
  unfold Cert.Layers.meanLinAt
  refine congrArg₂ (· + ·) ?_ ?_
  · refine (Cert.Lib.PlainDot.matmul_plain_zero_apply none (hidBlk v0 v2 v8) v14 p q).trans ?_
    exact Finset.sum_congr rfl fun c _ => by rw [hidBlk_apply]
  · rw [shapeCast_self]; exact broadcastTo_1b_ab_apply v16 _ p q

/-- The printed index maps over the grid: the row blocks move with the point, everything else stays at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := t.isLt.trans_eq (show cfg1.N = 10 from N_1)

/-- Point t's block of A is rows 5000·t … of A. -/
theorem ablk_apply (c : Dev nD) (t : Fin cfg1.N) (p : Fin 5000) (k : Fin 128) (r : Fin 50000) (hr : r.val = 5000 * t.val + p.val) :
    (iblk1 V c 0 t : Vec Ideal S5000x128 .f32) (ix2 p k) = featArr V c (ix2 r k) := by
  obtain ⟨e0, e1, -⟩ := idx_facts t
  unfold iblk1
  rw [View.read_apply]
  show V c main_v48 _ = V c main_v48 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Point t's block of the degree column is rows 5000·t … of the column. -/
theorem dblk_apply (c : Dev nD) (t : Fin cfg1.N) (p : Fin 5000) (r : Fin 50000) (hr : r.val = 5000 * t.val + p.val) :
    (iblk1 V c 1 t : Vec Ideal S5000x1 .f32) (ix2 p (0 : Fin 1)) = degArr V c (ix2 r (0 : Fin 1)) := by
  obtain ⟨-, -, e2, e3, -⟩ := idx_facts t
  unfold iblk1
  rw [View.read_apply]
  show V c main_v32 _ = V c main_v32 _
  congr 1
  funext a
  apply Fin.ext
  match a with
  | ⟨0, _⟩ => show win1_1.index t (0 : Fin 2) * 5000 + 1 * p.val = r.val; rw [e2, hr]; omega
  | ⟨1, _⟩ => show win1_1.index t (1 : Fin 2) * 1 + 1 * 0 = 0; rw [e3]

/-- Every point's block of the bias row is the row. -/
theorem bblk_apply (c : Dev nD) (t : Fin cfg1.N) (k : Fin 128) :
    (iblk1 V c 2 t : Vec Ideal S1x128 .f32) (ix2 (0 : Fin 1) k) = biasArr V c (ix2 (0 : Fin 1) k) := by
  obtain ⟨-, -, -, -, e4, e5, -⟩ := idx_facts t
  unfold iblk1
  rw [View.read_apply]
  show V c main_v50 _ = V c main_v50 _
  congr 1
  funext a
  apply Fin.ext
  match a with
  | ⟨0, _⟩ => show win1_2.index t (0 : Fin 2) * 1 + 1 * 0 = 0; rw [e4]
  | ⟨1, _⟩ => show win1_2.index t (1 : Fin 2) * 128 + 1 * k.val = k.val; rw [e5]; omega

/-- Every point's block of W is W. -/
theorem wblk_apply (c : Dev nD) (t : Fin cfg1.N) (k : Fin 128) (q : Fin 128) :
    (iblk1 V c 3 t : Vec Ideal S128x128 .f32) (ix2 k q) = wArr V c (ix2 k q) := by
  obtain ⟨-, -, -, -, -, -, e6, e7, -⟩ := idx_facts t
  unfold iblk1
  rw [View.read_apply]
  show V c main_arg4 _ = V c main_arg4 _
  congr 1
  funext a
  apply Fin.ext
  match a with
  | ⟨0, _⟩ => show win1_3.index t (0 : Fin 2) * 128 + 1 * k.val = k.val; rw [e6]; omega
  | ⟨1, _⟩ => show win1_3.index t (1 : Fin 2) * 128 + 1 * q.val = q.val; rw [e7]; omega

/-- Every point's block of the final row is the row. -/
theorem zblk_apply (c : Dev nD) (t : Fin cfg1.N) (q : Fin 128) :
    (iblk1 V c 4 t : Vec Ideal S1x128 .f32) (ix2 (0 : Fin 1) q) = rowArr V c (ix2 (0 : Fin 1) q) := by
  obtain ⟨-, -, -, -, -, -, -, -, e8, e9, -⟩ := idx_facts t
  unfold iblk1
  rw [View.read_apply]
  show V c main_v51 _ = V c main_v51 _
  congr 1
  funext a
  apply Fin.ext
  match a with
  | ⟨0, _⟩ => show win1_4.index t (0 : Fin 2) * 1 + 1 * 0 = 0; rw [e8]
  | ⟨1, _⟩ => show win1_4.index t (1 : Fin 2) * 128 + 1 * q.val = q.val; rw [e9]; omega

/-- What point t writes back is block t of the layer's array. -/
theorem flushed_eq (c : Dev nD) (t : Fin cfg1.N) :
    (dat1 V c).flushed 5 t = ((cfg1.win 5).blk t).view.read (Elt Ideal)
      (Cert.Layers.meanLin (featArr V c) (degArr V c) (biasArr V c) (wArr V c) (rowArr V c)) := by
  obtain ⟨-, -, -, -, -, -, -, -, -, -, e10, e11⟩ := idx_facts t
  have ht := t_lt t
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  rw [View.read_apply]
  let r : Fin 50000 := ⟨5000 * t.val + p.val, by have := p.isLt; omega⟩
  have he : ((cfg1.win 5).blk t).view.emb (ix2 p q) = ix2 r q := by
    funext a
    apply Fin.ext
    match a with
    | ⟨0, _⟩ => show win1_5.index t (0 : Fin 2) * 5000 + 1 * p.val = 5000 * t.val + p.val; rw [e10]; omega
    | ⟨1, _⟩ => show win1_5.index t (1 : Fin 2) * 128 + 1 * q.val = q.val; rw [e11]; omega
  rw [he, Cert.Layers.meanLin_ix2]
  refine (pay_apply (iblk1 V c 0 t) (iblk1 V c 1 t) (iblk1 V c 2 t) (iblk1 V c 3 t) (iblk1 V c 4 t) p q).trans ?_
  unfold Cert.Layers.meanLinAt Cert.Layers.hidAt
  refine congrArg₂ (· + ·) (Finset.sum_congr rfl fun k _ => congrArg₂ (· * ·) ?_ ?_) ?_
  · rw [ablk_apply V c t p k r rfl, dblk_apply V c t p r rfl, bblk_apply V c t k]
  · exact wblk_apply V c t k q
  · exact zblk_apply V c t q

/-- An index of the result is in point t's block iff its coordinates are in the block's ranges. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- Row r of the result is in the block of point r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by rw [show cfg1.N = 10 from N_1]; omega⟩, flush1_5 _, ?_⟩
  rw [mem_blk]
  obtain ⟨-, -, -, -, -, -, -, -, -, -, e10, e11⟩ := idx_facts ⟨(i 0).val / 5000, by rw [show cfg1.N = 10 from N_1]; omega⟩
  intro a
  match a with
  | ⟨0, _⟩ =>
    show win1_5.index _ (0 : Fin 2) * 5000 ≤ (i 0).val ∧ (i 0).val < win1_5.index _ (0 : Fin 2) * 5000 + 5000
    rw [e10]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e11]; omega

/-- The region's output array after its ten write-backs: the mean layer of its arrays, whatever the entry contents. -/
theorem value (c : Dev nD) : (dat1 V c).arrAt 5 cfg1.N = Cert.Layers.meanLin (featArr V c) (degArr V c) (biasArr V c) (wArr V c) (rowArr V c) :=
  (dat1 V c).arrAt_eq_of_cover 5 (Cert.Layers.meanLin (featArr V c) (degArr V c) (biasArr V c) (wArr V c) (rowArr V c)) (fun t _ => flushed_eq V c t) (cover)

end Cert.KernelIdeal.Region1

end
-- ==== Proof.Region2Value.lean ====
/-
  The third pallas_call, read as a value: whatever the TensorCore's buffers hold when the region is entered, the
  region leaves in its output array the mean layer of its five arrays, entry by entry.

  The grid has ten points; point t handles rows 5000·t … 5000·t + 4999.  Its body loads that block of rows of the
  aggregated features A and of the degree column D, the bias row B, all of W and the row Z; it divides each row of A by
  its degree clamped below at one, adds the bias, clamps at zero, multiplies by W into a zero accumulator, adds Z, and
  stores the block; the ten blocks tile the result.  So entry (5000·t + p, q) of the result is
  ∑_k max (A[5000·t + p, k] / max (D[5000·t + p, 0], 1) + B[0, k], 0) · W[k, q] + Z[0, q].
-/
import proofs.«420155_j66425964200295_3_alg».proof.Proof.Gen.KernelIdeal.Frame
import proofs.«420155_j66425964200295_3_alg».proof.Proof.Layers
import proofs.«420155_j66425964200295_3_alg».proof.Proof.LibPlainDot
import proofs.«420155_j66425964200295_3_alg».proof.Proof.LibRowOps
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The five arrays the region reads, at their literal shapes. -/
abbrev featArr (c : Dev nD) : FVec Ideal ⟨2, ![50000, 128]⟩ .f32 := V c main_v65
abbrev degArr (c : Dev nD) : FVec Ideal ⟨2, ![50000, 1]⟩ .f32 := V c main_v32
abbrev biasArr (c : Dev nD) : FVec Ideal ⟨2, ![1, 128]⟩ .f32 := V c main_v66
abbrev wArr (c : Dev nD) : FVec Ideal ⟨2, ![128, 10]⟩ .f32 := V c main_arg6
abbrev rowArr (c : Dev nD) : FVec Ideal ⟨2, ![1, 10]⟩ .f32 := V c main_v67

/-- The hidden block the body forms before its product: mean over the clamped degree, bias, clamp at zero. -/
def hidBlk (v0 : Vec Ideal S5000x128 .f32) (v2 : Vec Ideal S5000x1 .f32) (v8 : Vec Ideal S1x128 .f32) : FVec Ideal S5000x128 .f32 :=
  maximumf (F := Ideal) (addf (F := Ideal) (divf (F := Ideal) (shapeCast S5000x128 v0 shapeCasts_S5000x128_S5000x128)
        (broadcastTo S5000x128 (maximumf (F := Ideal) (shapeCast S5000x1 v2 shapeCasts_S5000x1_S5000x1) (broadcast S5000x1 (Scalar.ofBits (F := Ideal) .f32 0x3F800000#32))) broadcasts_S5000x1_S5000x128))
      (broadcastTo S5000x128 (shapeCast S1x128 v8 shapeCasts_S1x128_S1x128) broadcasts_S1x128_S5000x128))
    (broadcast S5000x128 (Scalar.ofBits (F := Ideal) .f32 0x00000000#32))

/-- The stored value is the hidden block times W into zeros, plus the row. -/
theorem pay_eq (v0 : Vec Ideal S5000x128 .f32) (v2 : Vec Ideal S5000x1 .f32) (v8 : Vec Ideal S1x128 .f32) (v14 : Vec Ideal S128x10 .f32) (v16 : Vec Ideal S1x10 .f32) :
    k2_pay1 v0 v2 v8 v14 v16 = addf (matmul (F := Ideal) (φ₁ := .f32) (φ₂ := .f32) dot_S5000x128_S128x10_S5000x10_1_0_0_1_n_n none (hidBlk v0 v2 v8) v14 (constant (F := Ideal) S5000x10 .f32 0x00000000#32))
      (broadcastTo S5000x10 (shapeCast S1x10 v16 shapeCasts_S1x10_S1x10) broadcasts_S1x10_S5000x10) := rfl

/-- The hidden block at entry (p, c). -/
theorem hidBlk_apply (v0 : Vec Ideal S5000x128 .f32) (v2 : Vec Ideal S5000x1 .f32) (v8 : Vec Ideal S1x128 .f32) (p : Fin 5000) (c : Fin 128) :
    hidBlk v0 v2 v8 (ix2 p c) = Cert.Layers.hidAt (n := 5000) (k := 128) v0 v2 v8 p c := by
  unfold hidBlk Cert.Layers.hidAt
  simp only [shapeCast_self]
  rw [maximumf_apply, addf_apply, divf_apply]
  rw [Cert.RowOps.broadcastTo_a1_ab_apply (maximumf (F := Ideal) v2 (broadcast S5000x1 (Scalar.ofBits (F := Ideal) .f32 0x3F800000#32))) broadcasts_S5000x1_S5000x128 p c,
    broadcastTo_1b_ab_apply v8 broadcasts_S1x128_S5000x128 p c, maximumf_apply]
  rfl

/-- The body's stored value at entry (p, q) of a block. -/
theorem pay_apply (v0 : Vec Ideal S5000x128 .f32) (v2 : Vec Ideal S5000x1 .f32) (v8 : Vec Ideal S1x128 .f32) (v14 : Vec Ideal S128x10 .f32) (v16 : Vec Ideal S1x10 .f32)
    (p : Fin 5000) (q : Fin 10) :
    k2_pay1 v0 v2 v8 v14 v16 (ix2 p q) = Cert.Layers.meanLinAt (n := 5000) (k := 128) (p := 10) v0 v2 v8 v14 v16 p q := by
  rw [pay_eq, addf_apply]
  unfold Cert.Layers.meanLinAt
  refine congrArg₂ (· + ·) ?_ ?_
  · refine (Cert.Lib.PlainDot.matmul_plain_zero_apply none (hidBlk v0 v2 v8) v14 p q).trans ?_
    exact Finset.sum_congr rfl fun c _ => by rw [hidBlk_apply]
  · rw [shapeCast_self]; exact broadcastTo_1b_ab_apply v16 _ p q

/-- The printed index maps over the grid: the row blocks move with the point, everything else stays at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 10 := t.isLt.trans_eq (show cfg2.N = 10 from N_2)

/-- Point t's block of A is rows 5000·t … of A. -/
theorem ablk_apply (c : Dev nD) (t : Fin cfg2.N) (p : Fin 5000) (k : Fin 128) (r : Fin 50000) (hr : r.val = 5000 * t.val + p.val) :
    (iblk2 V c 0 t : Vec Ideal S5000x128 .f32) (ix2 p k) = featArr V c (ix2 r k) := by
  obtain ⟨e0, e1, -⟩ := idx_facts t
  unfold iblk2
  rw [View.read_apply]
  show V c main_v65 _ = V c main_v65 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Point t's block of the degree column is rows 5000·t … of the column. -/
theorem dblk_apply (c : Dev nD) (t : Fin cfg2.N) (p : Fin 5000) (r : Fin 50000) (hr : r.val = 5000 * t.val + p.val) :
    (iblk2 V c 1 t : Vec Ideal S5000x1 .f32) (ix2 p (0 : Fin 1)) = degArr V c (ix2 r (0 : Fin 1)) := by
  obtain ⟨-, -, e2, e3, -⟩ := idx_facts t
  unfold iblk2
  rw [View.read_apply]
  show V c main_v32 _ = V c main_v32 _
  congr 1
  funext a
  apply Fin.ext
  match a with
  | ⟨0, _⟩ => show win2_1.index t (0 : Fin 2) * 5000 + 1 * p.val = r.val; rw [e2, hr]; omega
  | ⟨1, _⟩ => show win2_1.index t (1 : Fin 2) * 1 + 1 * 0 = 0; rw [e3]

/-- Every point's block of the bias row is the row. -/
theorem bblk_apply (c : Dev nD) (t : Fin cfg2.N) (k : Fin 128) :
    (iblk2 V c 2 t : Vec Ideal S1x128 .f32) (ix2 (0 : Fin 1) k) = biasArr V c (ix2 (0 : Fin 1) k) := by
  obtain ⟨-, -, -, -, e4, e5, -⟩ := idx_facts t
  unfold iblk2
  rw [View.read_apply]
  show V c main_v66 _ = V c main_v66 _
  congr 1
  funext a
  apply Fin.ext
  match a with
  | ⟨0, _⟩ => show win2_2.index t (0 : Fin 2) * 1 + 1 * 0 = 0; rw [e4]
  | ⟨1, _⟩ => show win2_2.index t (1 : Fin 2) * 128 + 1 * k.val = k.val; rw [e5]; omega

/-- Every point's block of W is W. -/
theorem wblk_apply (c : Dev nD) (t : Fin cfg2.N) (k : Fin 128) (q : Fin 10) :
    (iblk2 V c 3 t : Vec Ideal S128x10 .f32) (ix2 k q) = wArr V c (ix2 k q) := by
  obtain ⟨-, -, -, -, -, -, e6, e7, -⟩ := idx_facts t
  unfold iblk2
  rw [View.read_apply]
  show V c main_arg6 _ = V c main_arg6 _
  congr 1
  funext a
  apply Fin.ext
  match a with
  | ⟨0, _⟩ => show win2_3.index t (0 : Fin 2) * 128 + 1 * k.val = k.val; rw [e6]; omega
  | ⟨1, _⟩ => show win2_3.index t (1 : Fin 2) * 10 + 1 * q.val = q.val; rw [e7]; omega

/-- Every point's block of the final row is the row. -/
theorem zblk_apply (c : Dev nD) (t : Fin cfg2.N) (q : Fin 10) :
    (iblk2 V c 4 t : Vec Ideal S1x10 .f32) (ix2 (0 : Fin 1) q) = rowArr V c (ix2 (0 : Fin 1) q) := by
  obtain ⟨-, -, -, -, -, -, -, -, e8, e9, -⟩ := idx_facts t
  unfold iblk2
  rw [View.read_apply]
  show V c main_v67 _ = V c main_v67 _
  congr 1
  funext a
  apply Fin.ext
  match a with
  | ⟨0, _⟩ => show win2_4.index t (0 : Fin 2) * 1 + 1 * 0 = 0; rw [e8]
  | ⟨1, _⟩ => show win2_4.index t (1 : Fin 2) * 10 + 1 * q.val = q.val; rw [e9]; omega

/-- What point t writes back is block t of the layer's array. -/
theorem flushed_eq (c : Dev nD) (t : Fin cfg2.N) :
    (dat2 V c).flushed 5 t = ((cfg2.win 5).blk t).view.read (Elt Ideal)
      (Cert.Layers.meanLin (featArr V c) (degArr V c) (biasArr V c) (wArr V c) (rowArr V c)) := by
  obtain ⟨-, -, -, -, -, -, -, -, -, -, e10, e11⟩ := idx_facts t
  have ht := t_lt t
  show (cfg2.win 5).cut (grid2.coords t) ((dat2 V c).after 5 t) = _
  rw [after2_5]
  unfold out2_5
  rw [View.canon_unit_zero hz]
  simp only [View.ld_unit_zero (S := S5000x128) hz, View.ld_unit_zero (S := S5000x1) hz, View.ld_unit_zero (S := S1x128) hz, View.ld_unit_zero (S := S128x10) hz, View.ld_unit_zero (S := S1x10) hz]
  funext j
  obtain ⟨p, q, rfl⟩ : ∃ (p : Fin 5000) (q : Fin 10), j = ix2 p q := ⟨j 0, j 1, eq_ix2 j⟩
  rw [View.read_apply]
  let r : Fin 50000 := ⟨5000 * t.val + p.val, by have := p.isLt; omega⟩
  have he : ((cfg2.win 5).blk t).view.emb (ix2 p q) = ix2 r q := by
    funext a
    apply Fin.ext
    match a with
    | ⟨0, _⟩ => show win2_5.index t (0 : Fin 2) * 5000 + 1 * p.val = 5000 * t.val + p.val; rw [e10]; omega
    | ⟨1, _⟩ => show win2_5.index t (1 : Fin 2) * 10 + 1 * q.val = q.val; rw [e11]; omega
  rw [he, Cert.Layers.meanLin_ix2]
  refine (pay_apply (iblk2 V c 0 t) (iblk2 V c 1 t) (iblk2 V c 2 t) (iblk2 V c 3 t) (iblk2 V c 4 t) p q).trans ?_
  unfold Cert.Layers.meanLinAt Cert.Layers.hidAt
  refine congrArg₂ (· + ·) (Finset.sum_congr rfl fun k _ => congrArg₂ (· * ·) ?_ ?_) ?_
  · rw [ablk_apply V c t p k r rfl, dblk_apply V c t p r rfl, bblk_apply V c t k]
  · exact wblk_apply V c t k q
  · exact zblk_apply V c t q

/-- An index of the result is in point t's block iff its coordinates are in the block's ranges. -/
theorem mem_blk (t : Fin cfg2.N) (i : S50000x10.Idx) :
    i ∈ ((cfg2.win 5).blk t).view.set ↔ ∀ a : Fin 2, win2_5.index t a * S5000x10.size a ≤ (i a).val ∧ (i a).val < win2_5.index t a * S5000x10.size a + S5000x10.size a := by
  show i ∈ ((View.whole main_v68).slice (win2_5.rect t)).set ↔ _
  rw [View.set_slice_whole, Rect.mem_set_unit]
  exact Iff.rfl

/-- Row r of the result is in the block of point r / 5000. -/
theorem cover (i : S50000x10.Idx) : ∃ t : Fin cfg2.N, (cfg2.win 5).flush t = true ∧ i ∈ ((cfg2.win 5).blk t).view.set := by
  have hi0 : (i 0).val < 50000 := (i 0).isLt
  have hi1 : (i 1).val < 10 := (i 1).isLt
  refine ⟨⟨(i 0).val / 5000, by rw [show cfg2.N = 10 from N_2]; omega⟩, flush2_5 _, ?_⟩
  rw [mem_blk]
  obtain ⟨-, -, -, -, -, -, -, -, -, -, e10, e11⟩ := idx_facts ⟨(i 0).val / 5000, by rw [show cfg2.N = 10 from N_2]; omega⟩
  intro a
  match a with
  | ⟨0, _⟩ =>
    show win2_5.index _ (0 : Fin 2) * 5000 ≤ (i 0).val ∧ (i 0).val < win2_5.index _ (0 : Fin 2) * 5000 + 5000
    rw [e10]; show (i 0).val / 5000 * 5000 ≤ (i 0).val ∧ (i 0).val < (i 0).val / 5000 * 5000 + 5000; omega
  | ⟨1, _⟩ =>
    show win2_5.index _ (1 : Fin 2) * 10 ≤ (i 1).val ∧ (i 1).val < win2_5.index _ (1 : Fin 2) * 10 + 10
    rw [e11]; omega

/-- The region's output array after its ten write-backs: the mean layer of its arrays, whatever the entry contents. -/
theorem value (c : Dev nD) : (dat2 V c).arrAt 5 cfg2.N = Cert.Layers.meanLin (featArr V c) (degArr V c) (biasArr V c) (wArr V c) (rowArr V c) :=
  (dat2 V c).arrAt_eq_of_cover 5 (Cert.Layers.meanLin (featArr V c) (degArr V c) (biasArr V c) (wArr V c) (rowArr V c)) (fun t _ => flushed_eq V c t) (cover)

end Cert.KernelIdeal.Region2

end
-- ==== Proof.KernelValue.lean ====
/-
  The idealized kernel program's result is the reference's last stage of the same arguments.

  Reading the run backwards from the result buffer: the third call leaves the mean layer of its entry arrays
  (Region2Value); its feature array is the second round of message passing on the second call's output (HostChain),
  which is the mean layer of that call's entry arrays (Region1Value); its feature array is the first round on the first
  call's output, which is X·W1 plus a zero row (Region0Value).  The reference computes the same three layers and the same
  two rounds (RefLayers), with the degrees laid out as a column, the biases as rows, and no bias where the kernel adds a
  zero row: so the two results are one function of the arguments.
-/
import proofs.«420155_j66425964200295_3_alg».proof.Proof.KernelRun
import proofs.«420155_j66425964200295_3_alg».proof.Proof.HostChain
import proofs.«420155_j66425964200295_3_alg».proof.Proof.Region0Value
import proofs.«420155_j66425964200295_3_alg».proof.Proof.Region1Value
import proofs.«420155_j66425964200295_3_alg».proof.Proof.Region2Value
import proofs.«420155_j66425964200295_3_alg».proof.Proof.RefLayers
import proofs.«420155_j66425964200295_3_alg».proof.Proof.LibRowOps

set_option maxRecDepth 16384

noncomputable section

open Idealize.ShloMosaic Idealize.ShloMosaic.TcCoe Idealize.ShloMosaic.ValueIdx Idealize.SL.Sem

namespace Cert.KernelIdeal.Whole

open Cert.KernelIdeal Cert.KernelIdeal.Gen Cert.KernelIdeal.HostChain
open Cert.ReferenceIdeal.ReadP Cert.ReferenceIdeal.Layered

variable (m : (ℓ : Loc nD τ sig) → Buf (Elt Ideal) ℓ) (ρ : Dev nD → PrngReg)

/-! ## Layouts: a vector cast to a column or to a row, and the zero row -/

theorem col_eq {n : ℕ} (d : FVec Ideal ⟨1, ![n]⟩ .f32) (h : (⟨1, ![n]⟩ : Shape).ShapeCasts ⟨2, ![n, 1]⟩) :
    shapeCast ⟨2, ![n, 1]⟩ d h = Cert.Layers.colOf d :=
  Cert.Layers.ext2 (n := n) (p := 1) _ _ fun r u => (Cert.RowOps.shapeCast_a_a1_apply d h r u).trans (Cert.Layers.colOf_ix2 d r u).symm

theorem row_eq {k : ℕ} (b : FVec Ideal ⟨1, ![k]⟩ .f32) (h : (⟨1, ![k]⟩ : Shape).ShapeCasts ⟨2, ![1, k]⟩) :
    shapeCast ⟨2, ![1, k]⟩ b h = Cert.Layers.rowOf b :=
  Cert.Layers.ext2 (n := 1) (p := k) _ _ fun u c => (shapeCast_a_1a_apply b h u c).trans (Cert.Layers.rowOf_ix2 b u c).symm

/-- The row made by broadcasting the zero word and casting it to a row is the row of zeros. -/
theorem zrow_eq : zrow (F := Ideal) = Cert.Layers.zeroRow 128 := by
  show shapeCast S1x128 (broadcastInDim S128 ![] bcast_S_S128 (constant (F := Ideal) S_ .f32 0x00000000#32)) shapeCasts_S128_S1x128 = _
  rw [row_eq]
  refine Cert.Layers.ext2 (n := 1) (p := 128) _ _ fun u c => ?_
  rw [Cert.Layers.rowOf_ix2]
  exact broadcastInDim_apply _ bcast_S_S128 _ (ix1 c) ix0 (fun a => a.elim0)

/-! ## The three calls' outputs, each at the reference's stage -/

/-- The first call's output is the reference's first product. -/
theorem out0_eq (c : Dev nD) : (dat0 (V3 m ρ) c).arrAt 3 cfg0.N = val_main_v17 (F := Ideal) (a0 m c) (a2 m c) := by
  rw [Region0.value (V3 m ρ) c, layer1]
  have e0 : Region0.xArr (V3 m ρ) c = a0 m c := first_arg0 m ρ c
  have e2 : Region0.wArr (V3 m ρ) c = a2 m c := first_arg2 m ρ c
  have ez : Region0.rowArr (V3 m ρ) c = Cert.Layers.zeroRow 128 := (first_zrow m ρ c).trans zrow_eq
  rw [e0, e2, ez]

/-- The second call's output is the reference's second product. -/
theorem out1_eq (c : Dev nD) :
    (dat1 (V5 m ρ) c).arrAt 5 cfg1.N = val_main_v55 (F := Ideal) (a0 m c) (a1 m c) (a2 m c) (a3 m c) (a4 m c) := by
  rw [Region1.value (V5 m ρ) c, layer2, round1]
  have eA : Region1.featArr (V5 m ρ) c = agg (val_main_v17 (F := Ideal) (a0 m c) (a2 m c)) (a1 m c) :=
    (mid1_agg m ρ c).trans (by rw [out0_eq])
  have eD : Region1.degArr (V5 m ρ) c = Cert.Layers.colOf (val_main_v10 (F := Ideal) (a1 m c)) := (mid1_degcol m ρ c).trans (col_eq _ _)
  have eB : Region1.biasArr (V5 m ρ) c = Cert.Layers.rowOf (a3 m c) := (mid1_bias m ρ c).trans (row_eq _ _)
  have eW : Region1.wArr (V5 m ρ) c = a4 m c := mid1_arg4 m ρ c
  have eZ : Region1.rowArr (V5 m ρ) c = Cert.Layers.zeroRow 128 := (mid1_zrow m ρ c).trans zrow_eq
  rw [eA, eD, eB, eW, eZ]

/-- The third call's output is the reference's result. -/
theorem out2_eq (c : Dev nD) :
    (dat2 (V7 m ρ) c).arrAt 5 cfg2.N
      = val_main_v96 (F := Ideal) (a0 m c) (a1 m c) (a2 m c) (a3 m c) (a4 m c) (a5 m c) (a6 m c) (a7 m c) := by
  rw [Region2.value (V7 m ρ) c, layer3, round2]
  have eA : Region2.featArr (V7 m ρ) c = agg (val_main_v55 (F := Ideal) (a0 m c) (a1 m c) (a2 m c) (a3 m c) (a4 m c)) (a1 m c) :=
    (mid2_agg m ρ c).trans (by rw [out1_eq])
  have eD : Region2.degArr (V7 m ρ) c = Cert.Layers.colOf (val_main_v10 (F := Ideal) (a1 m c)) := (mid2_degcol m ρ c).trans (col_eq _ _)
  have eB : Region2.biasArr (V7 m ρ) c = Cert.Layers.rowOf (a5 m c) := (mid2_bias m ρ c).trans (row_eq _ _)
  have eW : Region2.wArr (V7 m ρ) c = a6 m c := mid2_arg6 m ρ c
  have eZ : Region2.rowArr (V7 m ρ) c = Cert.Layers.rowOf (a7 m c) := (mid2_cbias m ρ c).trans (row_eq _ _)
  rw [eA, eD, eB, eW, eZ]

/-- The result buffer at the last boundary is the reference's result of the same arguments. -/
theorem value (c : Dev nD) :
    W8 m ρ c (Proc.devRef .tc main_v68)
      = val_main_v96 (F := Ideal) (a0 m c) (a1 m c) (a2 m c) (a3 m c) (a4 m c) (a5 m c) (a6 m c) (a7 m c) :=
  (out2 m ρ c).trans (out2_eq m ρ c)

/-- The run, read: the result array at the reference's result of the arguments, the arguments unchanged. -/
theorem run : θ_run defs (onTc (τ := τ) (main (F := Ideal))) ⟨m, fun _ => 0, ρ⟩ (fun r => ∀ c : Dev nD,
      r.2.mem ((c.tc : Thread nD τ).loc main_v68)
        = val_main_v96 (F := Ideal) (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (Cert.KernelIdeal.ResultRun.run m ρ)

end Cert.KernelIdeal.Whole

end
-- ==== Proof.lean ====
/-
  The certificate of a two-layer graph network with a linear classifier: 50000 nodes with 256 features, 800000 edges.

  Both programs add a self loop to every node, take a node's degree as the number of edges arriving at it, weight an
  edge by the inverse square roots of its end points' degrees, and then, twice, multiply the node features by a weight
  matrix, pass messages along the edges (gather at the sources, scale by the edge weight, add at the destinations),
  divide by the degree clamped below at one, add a bias and clamp at zero; a last product with a bias gives ten scores
  per node.  The kernel program does the three products in pallas_calls over ten blocks of 5000 rows, each product
  fused with the mean, bias and clamp that precede it, and adds a zero row where there is no bias; the reference does
  everything on the host.  Over the extended reals a product into a zero accumulator and the host's product are the same
  sum, a zero row adds nothing, and the message passing is the same operations on both sides: the results are equal for
  every input, finite or not (the precondition is not used).

  The frames of the two kernel programs are the generated ones; the reference's is its run with the result dropped; the
  idealization rewrote nothing, so `preserves` is trivial.
-/
import proofs.«420155_j66425964200295_3_alg».proof.Defs
import proofs.«420155_j66425964200295_3_alg».proof.Proof.Gen.Kernel
import proofs.«420155_j66425964200295_3_alg».proof.Proof.Gen.Kernel.Skeleton
import proofs.«420155_j66425964200295_3_alg».proof.Proof.Gen.Kernel.Launch
import proofs.«420155_j66425964200295_3_alg».proof.Proof.Gen.Kernel.Points
import proofs.«420155_j66425964200295_3_alg».proof.Proof.Gen.Kernel.Frame
import proofs.«420155_j66425964200295_3_alg».proof.Proof.Gen.KernelIdeal
import proofs.«420155_j66425964200295_3_alg».proof.Proof.Gen.KernelIdeal.Skeleton
import proofs.«420155_j66425964200295_3_alg».proof.Proof.Gen.KernelIdeal.Launch
import proofs.«420155_j66425964200295_3_alg».proof.Proof.Gen.KernelIdeal.Points
import proofs.«420155_j66425964200295_3_alg».proof.Proof.Gen.KernelIdeal.Frame
import proofs.«420155_j66425964200295_3_alg».proof.Proof.Gen.ReferenceIdeal
import proofs.«420155_j66425964200295_3_alg».proof.Proof.Gen.Pre_finite_inputs
import proofs.«420155_j66425964200295_3_alg».proof.Proof.RefRun
import proofs.«420155_j66425964200295_3_alg».proof.Proof.RefRead
import proofs.«420155_j66425964200295_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, both programs end with the reference's last stage of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v96_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
